-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 87
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x1, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128, .f32⟩
  | .hbm, ⟨86, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x800000, .i32⟩
  | 73 => ⟨S800000, .i32⟩
  | 74 => ⟨S1x800000, .i32⟩
  | 75 => ⟨S800000, .i32⟩
  | 76 => ⟨S50000, .i32⟩
  | 77 => ⟨S850000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S_, .f32⟩
  | 89 => ⟨S50000, .f32⟩
  | 90 => ⟨S50000, .f32⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000, .f32⟩
  | 114 => ⟨S850000, .f32⟩
  | 115 => ⟨S50000x128, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000x128, .f32⟩
  | 125 => ⟨S850000x1, .f32⟩
  | 126 => ⟨S850000x128, .f32⟩
  | 127 => ⟨S850000x128, .f32⟩
  | _ => ⟨S50000x128, .f32⟩

abbrev hbmTy0_1 (i : Nat) : BufTy := match i % 128 with
  | 0 => ⟨S_, .f32⟩
  | 1 => ⟨S50000x128, .f32⟩
  | 2 => ⟨S850000x1, .i32⟩
  | 3 => ⟨S50000x128, .f32⟩
  | 4 => ⟨S1x128, .f32⟩
  | 5 => ⟨S50000x128, .f32⟩
  | 6 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  What both programs compute, as one function of the six argument arrays.

  A graph-convolution layer over N = 50000 nodes and E = 800000 edges, each node also given a loop edge to itself
  (850000 edges in all). From the edge array e : i32[2, 800000] come the source column and the destination column
  (row 0 and row 1, each followed by 0, 1, …, 49999: `srcIdx`, `dstIdx`); the in-degree of a node is the number of
  edges whose destination it is (`deg`: ones scatter-added at the destinations), its weight is deg^(-1/2) where the
  degree is positive and 0 elsewhere (`dis`), and edge n carries the weight dis(src n) · dis(dst n) (`norm`). A layer
  takes node features X : [50000, 128], multiplies them by a weight matrix W : [128, 128] (`mm`), gathers the product's
  row at each edge's source, scales it by the edge's weight and adds it into the row of the edge's destination
  (`aggAt`, `agg`), and adds a bias row b : [128] to every row (`addBias`). The network is two such layers with the
  rectifier max(·, 0) between them (`relu`): `out`.

  Every piece is spelt with the host operations themselves, so that it is a term both programs' runs can be compared
  with without opening a gather or a scatter: the two programs differ only in HOW the product, the bias and the
  rectifier are computed, never in the edge arithmetic.
-/
import proofs.«156394_j43654047596701_1_alg».proof.Proof.Gen.ReferenceIdeal

noncomputable section

namespace Cert.Spec

open Cert.ReferenceIdeal Cert.ReferenceIdeal.Gen Idealize.ShloMosaic Idealize.ShloMosaic.TcCoe

variable {F : FTy → Type} [FloatOps F]

/-- Row `r` of the edge array followed by the node numbers 0 … 49999 (the loop edges): 850000 node numbers. -/
def srcIdx (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The destinations: row 1 of the edge array followed by the node numbers. -/
def dstIdx (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node number counted from the end: v + 50000 where v < 0, v elsewhere. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The in-degree of every node: a one for every edge, added at the edge's destination. -/
def deg (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- The node weight: (max(deg, 1e-12))^(-1/2) where the degree is positive, 0 elsewhere. -/
def dis (dst : (⟨S850000, .i32⟩ : BufTy).Contents (Elt F)) : (⟨S50000, .f32⟩ : BufTy).Contents (Elt F) :=
  select (cmpf .ogt (deg dst) (broadcastInDim S50000 ![] bcast_S_S50000 (constant S_ .f32 0x00000000#32))) (Host.rsqrt (maximumf (deg dst) (broadcastInDim S50000 ![] bcast_S_S50000 (constant S_ .f32 0x2B8CBCCC#32)))) (broadcastInDim S50000 ![] bcast_S_S50000 (id (constant S_ .f32 0x00000000#32)))

/-- The edge weight: the source's node weight times the destination's. -/
def normAt (src dst : (⟨S850000, .i32⟩ : BufTy).Contents (Elt F)) : (⟨S850000, .f32⟩ : BufTy).Contents (Elt F) :=
  mulf (Host.gather gather_S50000_S850000x1_S850000_n_0_n_n_0_1_1 (dis dst) (broadcastInDim S850000x1 ![0] bcast_S850000_S850000x1_0 (wrap src))) (Host.gather gather_S50000_S850000x1_S850000_n_0_n_n_0_1_1 (dis dst) (broadcastInDim S850000x1 ![0] bcast_S850000_S850000x1_0 (wrap dst)))

/-- One aggregation: the feature row of each edge's source, times the edge's weight, added into the row of the
    edge's destination, from zeros. -/
def aggAt (feat : (⟨S50000x128, .f32⟩ : BufTy).Contents (Elt F)) (src dst : (⟨S850000, .i32⟩ : BufTy).Contents (Elt F))
    (nrm : (⟨S850000, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 feat (broadcastInDim S850000x1 ![0] bcast_S850000_S850000x1_0 (wrap src))) (broadcastInDim S850000x128 ![0, 1] bcast_S850000x1_S850000x128_0_1 (broadcastInDim S850000x1 ![0] bcast_S850000_S850000x1_0 nrm)))

/-- The aggregation over the edges of the edge array `e`. -/
def agg (feat : (⟨S50000x128, .f32⟩ : BufTy).Contents (Elt F)) (e : (⟨S2x800000, .i32⟩ : BufTy).Contents (Elt F)) :
    (⟨S50000x128, .f32⟩ : BufTy).Contents (Elt F) :=
  aggAt feat (srcIdx e) (dstIdx e) (normAt (srcIdx e) (dstIdx e))

/-- The product of the node features with a weight matrix. -/
def mm (X : (⟨S50000x128, .f32⟩ : BufTy).Contents (Elt F)) (W : (⟨S128x128, .f32⟩ : BufTy).Contents (Elt F)) :
    (⟨S50000x128, .f32⟩ : BufTy).Contents (Elt F) :=
  Host.dotGeneral dot_S50000x128_S128x128_S50000x128_1_0_0_1_n_n none X W

/-- A bias row added to every row. -/
def addBias (Y : (⟨S50000x128, .f32⟩ : BufTy).Contents (Elt F)) (b : (⟨S128, .f32⟩ : BufTy).Contents (Elt F)) :
    (⟨S50000x128, .f32⟩ : BufTy).Contents (Elt F) :=
  addf Y (broadcastInDim S50000x128 ![0, 1] bcast_S1x128_S50000x128_0_1 (broadcastInDim S1x128 ![1] bcast_S128_S1x128_1 b))

/-- The rectifier: the maximum with zero, entry by entry. -/
def relu (Y : (⟨S50000x128, .f32⟩ : BufTy).Contents (Elt F)) : (⟨S50000x128, .f32⟩ : BufTy).Contents (Elt F) :=
  maximumf Y (broadcastInDim S50000x128 ![] bcast_S_S50000x128 (constant S_ .f32 0x00000000#32))

/-- One layer: product, aggregation over the edges, bias. -/
def layer (X : (⟨S50000x128, .f32⟩ : BufTy).Contents (Elt F)) (W : (⟨S128x128, .f32⟩ : BufTy).Contents (Elt F))
    (b : (⟨S128, .f32⟩ : BufTy).Contents (Elt F)) (e : (⟨S2x800000, .i32⟩ : BufTy).Contents (Elt F)) :
    (⟨S50000x128, .f32⟩ : BufTy).Contents (Elt F) :=
  addBias (agg (mm X W) e) b

/-- The network: two layers with the rectifier between them. -/
def out (x : (⟨S50000x128, .f32⟩ : BufTy).Contents (Elt F)) (e : (⟨S2x800000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S50000x128, .f32⟩ : BufTy).Contents (Elt F) :=
  layer (relu (layer x w1 b1 e)) w2 b2 e

end Cert.Spec

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.SpecAt.lean ====
/-
  The specification's dense pieces read at one entry over the extended reals.

  At the entry (r, q): the product of the node features with a weight matrix is the sum over k of X(r, k) · W(k, q);
  the bias adds b(q); the rectifier takes the maximum with 0. These are the forms both the whole arrays and their
  5000-row tiles are compared in.
-/
import proofs.«156394_j43654047596701_1_alg».proof.Proof.Spec
import proofs.«156394_j43654047596701_1_alg».proof.Proof.LibDense
import proofs.«156394_j43654047596701_1_alg».proof.Proof.LibBiasRow

noncomputable section

open scoped BigOperators

namespace Cert.SpecAt

open Idealize.ShloMosaic Idealize.ShloMosaic.ValueIdx

/-- The product at (r, q): the sum over the 128 feature columns. -/
theorem mm_apply (X : FVec Ideal ⟨2, ![50000, 128]⟩ .f32) (W : FVec Ideal ⟨2, ![128, 128]⟩ .f32) (r : Fin 50000) (q : Fin 128) :
    Cert.Spec.mm (F := Ideal) X W (ix2 r q) = ∑ k : Fin 128, X (ix2 r k) * W (ix2 k q) := by
  unfold Cert.Spec.mm
  exact Cert.Dense.dotGeneral_plain_apply Cert.ReferenceIdeal.dot_S50000x128_S128x128_S50000x128_1_0_0_1_n_n rfl rfl rfl rfl rfl rfl none X W r q

/-- The bias at (r, q): the entry plus b(q). -/
theorem addBias_apply (Y : FVec Ideal ⟨2, ![50000, 128]⟩ .f32) (b : FVec Ideal ⟨1, ![128]⟩ .f32) (r : Fin 50000) (q : Fin 128) :
    Cert.Spec.addBias (F := Ideal) Y b (ix2 r q) = Y (ix2 r q) + b (ix1 q) := by
  unfold Cert.Spec.addBias
  rw [addf_apply, Cert.BiasRow.layout_layout_apply]

/-- The rectifier at an entry: the maximum with 0. -/
theorem relu_apply (Y : FVec Ideal ⟨2, ![50000, 128]⟩ .f32) (i : (⟨2, ![50000, 128]⟩ : Shape).Idx) :
    Cert.Spec.relu (F := Ideal) Y i = max (Y i) 0 := by
  unfold Cert.Spec.relu
  exact Cert.Dense.host_relu_apply _ Y i

end Cert.SpecAt

end
-- ==== Proof.Region0.lean ====
/-
  Region 0: the first product, tile by tile.

  The region runs the matrix unit over ten tiles of 5000 rows: at point t it reads rows 5000·t … 5000·t + 4999 of the
  node features and the whole weight matrix, and writes the tile's product into the same rows of its output array.
  Entry (r, q) of a tile's product is the sum over k of tile(r, k) · W(k, q), which is the entry (5000·t + r, q) of the
  product of the whole arrays; the ten tiles cover every row, so the output array ends as the whole product.
-/
import proofs.«156394_j43654047596701_1_alg».proof.Proof.Gen.KernelIdeal.Frame
import proofs.«156394_j43654047596701_1_alg».proof.Proof.SpecAt
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A tile's product at (r, q): narrowing to bf16 is the identity on the extended reals, and the matrix unit's product
    into zeros is the sum over the contracted axis. -/
theorem pay_apply (x0 : Vec Ideal S5000x128 .f32) (x1 : Vec Ideal S128x128 .f32) (r : Fin 5000) (q : Fin 128) :
    k0_pay1 x0 x1 (ix2 r q) = ∑ k : Fin 128, x0 (ix2 r k) * x1 (ix2 k q) := by
  unfold k0_pay1
  refine (Cert.Dense.matmul_zero_plain_apply dot_S5000x128_S128x128_S5000x128_1_0_0_1_n_n rfl rfl rfl rfl rfl rfl none _ _ r q).trans ?_
  rfl

/-- The printed index maps over the grid: the row windows sit at block t, the weight window at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is tile t of the whole product. -/
theorem flushed_eq (c : Dev nD) (t : Fin cfg0.N) :
    (dat0 V c).flushed 2 t
      = ((cfg0.win 2).blk t).view.read (Elt Ideal) (Cert.Spec.mm (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  have ht : (t : ℕ) < 10 := lt_of_lt_of_eq t.isLt N_0
  funext j
  obtain ⟨r, q, rfl⟩ : ∃ (r : Fin 5000) (q : Fin 128), j = ix2 r q := ⟨j 0, j 1, eq_ix2 j⟩
  show k0_pay1 (iblk0 V c 0 t) (iblk0 V c 1 t) (ix2 r q)
      = Cert.Spec.mm (F := Ideal) (V c main_arg0) (V c main_arg2) (((cfg0.win 2).blk t).view.emb (ix2 r q))
  refine (pay_apply (iblk0 V c 0 t) (iblk0 V c 1 t) r q).trans ?_
  -- the tile's entry (r, q) is the array's entry (5000·t + r, q)
  have hemb : ((cfg0.win 2).blk t).view.emb (ix2 r q) = ix2 (⟨t.val * 5000 + r.val, by omega⟩ : Fin 50000) q := by
    funext a; apply Fin.ext
    match a with
    | ⟨0, _⟩ => show win0_2.index t (0 : Fin 2) * 5000 + 1 * r.val = t.val * 5000 + r.val; omega
    | ⟨1, _⟩ => show win0_2.index t (1 : Fin 2) * 128 + 1 * q.val = q.val; omega
  rw [hemb, Cert.SpecAt.mm_apply]
  refine Finset.sum_congr rfl fun k _ => ?_
  -- the feature tile's entry (r, k) is the features' entry (5000·t + r, k); the weight window is the whole matrix
  have h0 : ((cfg0.win 0).blk t).view.emb (ix2 r k) = ix2 (⟨t.val * 5000 + r.val, by omega⟩ : Fin 50000) k := by
    funext a; apply Fin.ext
    match a with
    | ⟨0, _⟩ => show win0_0.index t (0 : Fin 2) * 5000 + 1 * r.val = t.val * 5000 + r.val; omega
    | ⟨1, _⟩ => show win0_0.index t (1 : Fin 2) * 128 + 1 * k.val = k.val; omega
  have h1 : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  refine congrArg₂ (· * ·) ?_ ?_
  · show V c main_arg0 (((cfg0.win 0).blk t).view.emb (ix2 r k)) = _
    rw [h0]
  · show V c main_arg2 (((cfg0.win 1).blk t).view.emb (ix2 k q)) = _
    rw [h1]

/-- An index of the output array is in point t's tile iff each coordinate is in the tile's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every block index 0 … 9 on the row axis is some point's. -/
theorem idx_onto : ∀ (p : Fin 10), ∃ t : Fin cfg0.N, win0_2.index t = ![p.val, 0] :=
  (by decide +kernel : ∀ (p : Fin 10), ∃ t : Fin grid0.N, win0_2.index t = ![p.val, 0])

/-- The ten tiles cover the output array: row i lies in tile i / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region is the whole product of the arrays the region was entered with. -/
theorem arr (c : Dev nD) :
    (dat0 V c).arrAt 2 cfg0.N = Cert.Spec.mm (F := Ideal) (V c main_arg0) (V c main_arg2) :=
  (dat0 V c).arrAt_eq_of_cover 2 _ (fun t _ => flushed_eq V c t) cover

end Cert.KernelIdeal.Region0

end
-- ==== Proof.Region1.lean ====
/-
  Region 1: the first layer's bias and rectifier, tile by tile.

  The region works on ten tiles of 5000 rows: at point t it reads rows 5000·t … 5000·t + 4999 of the aggregated
  features and the bias as a [1, 128] row, adds the row to every row of the tile, takes the maximum with zero, and
  writes the tile into the same rows of its output array. Entry (r, q) of the tile is max(Y(5000·t + r, q) + b(q), 0),
  which is the rectified, biased array's entry there; the ten tiles cover every row.
-/
import proofs.«156394_j43654047596701_1_alg».proof.Proof.Gen.KernelIdeal.Frame
import proofs.«156394_j43654047596701_1_alg».proof.Proof.SpecAt
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The tile's stored value at (r, q): the casts to the operands' own shapes are the identity, the [1, 128] row is
    repeated over the rows, and the splat of the zero word is 0. -/
theorem pay_apply (x0 : Vec Ideal S5000x128 .f32) (x1 : Vec Ideal S1x128 .f32) (r : Fin 5000) (q : Fin 128) :
    k1_pay1 x0 x1 (ix2 r q) = max (x0 (ix2 r q) + x1 (ix2 (0 : Fin 1) q)) 0 := by
  unfold k1_pay1
  rw [Cert.Dense.kernel_relu_apply, addf_apply, shapeCast_self, shapeCast_self, Cert.BiasRow.stretch_row_apply]

/-- The printed index maps over the grid: the row windows sit at block t, the bias window at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is tile t of the rectified, biased array, when the bias window's array is the bias
    given a leading unit axis. -/
theorem flushed_eq (c : Dev nD) (b : FVec Ideal S128 .f32)
    (hb : V c main_v46 = shapeCast S1x128 b shapeCasts_S128_S1x128) (t : Fin cfg1.N) :
    (dat1 V c).flushed 2 t
      = ((cfg1.win 2).blk t).view.read (Elt Ideal)
          (Cert.Spec.relu (F := Ideal) (Cert.Spec.addBias (F := Ideal) (V c main_v45) b)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  have ht : (t : ℕ) < 10 := lt_of_lt_of_eq t.isLt N_1
  funext j
  obtain ⟨r, q, rfl⟩ : ∃ (r : Fin 5000) (q : Fin 128), j = ix2 r q := ⟨j 0, j 1, eq_ix2 j⟩
  show k1_pay1 (iblk1 V c 0 t) (iblk1 V c 1 t) (ix2 r q)
      = Cert.Spec.relu (F := Ideal) (Cert.Spec.addBias (F := Ideal) (V c main_v45) b) (((cfg1.win 2).blk t).view.emb (ix2 r q))
  refine (pay_apply (iblk1 V c 0 t) (iblk1 V c 1 t) r q).trans ?_
  -- the tile's entry (r, q) is the array's entry (5000·t + r, q)
  have hemb : ((cfg1.win 2).blk t).view.emb (ix2 r q) = ix2 (⟨t.val * 5000 + r.val, by omega⟩ : Fin 50000) q := by
    funext a; apply Fin.ext
    match a with
    | ⟨0, _⟩ => show win1_2.index t (0 : Fin 2) * 5000 + 1 * r.val = t.val * 5000 + r.val; omega
    | ⟨1, _⟩ => show win1_2.index t (1 : Fin 2) * 128 + 1 * q.val = q.val; omega
  rw [hemb, Cert.SpecAt.relu_apply, Cert.SpecAt.addBias_apply]
  -- the input tile's entry (r, q) is the input's entry (5000·t + r, q); the bias window is the whole [1, 128] row
  have h0 : ((cfg1.win 0).blk t).view.emb (ix2 r q) = ix2 (⟨t.val * 5000 + r.val, by omega⟩ : Fin 50000) q := by
    funext a; apply Fin.ext
    match a with
    | ⟨0, _⟩ => show win1_0.index t (0 : Fin 2) * 5000 + 1 * r.val = t.val * 5000 + r.val; omega
    | ⟨1, _⟩ => show win1_0.index t (1 : Fin 2) * 128 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * (0 : Fin 1).val = (0 : Fin 1).val; omega
    | ⟨1, _⟩ => show win1_1.index t (1 : Fin 2) * 128 + 1 * q.val = q.val; omega
  refine congrArg (max · 0) (congrArg₂ (· + ·) ?_ ?_)
  · show V c main_v45 (((cfg1.win 0).blk t).view.emb (ix2 r q)) = _
    rw [h0]
  · show V c main_v46 (((cfg1.win 1).blk t).view.emb (ix2 (0 : Fin 1) q)) = _
    rw [h1, hb]
    exact Cert.BiasRow.cast_row_apply shapeCasts_S128_S1x128 b q

/-- An index of the output array is in point t's tile iff each coordinate is in the tile's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Every block index 0 … 9 on the row axis is some point's. -/
theorem idx_onto : ∀ (p : Fin 10), ∃ t : Fin cfg1.N, win1_2.index t = ![p.val, 0] :=
  (by decide +kernel : ∀ (p : Fin 10), ∃ t : Fin grid1.N, win1_2.index t = ![p.val, 0])

/-- The ten tiles cover the output array: row i lies in tile i / 5000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region is the rectified, biased input array, when the bias window's array is the bias
    given a leading unit axis. -/
theorem arr (c : Dev nD) (b : FVec Ideal S128 .f32) (hb : V c main_v46 = shapeCast S1x128 b shapeCasts_S128_S1x128) :
    (dat1 V c).arrAt 2 cfg1.N = Cert.Spec.relu (F := Ideal) (Cert.Spec.addBias (F := Ideal) (V c main_v45) b) :=
  (dat1 V c).arrAt_eq_of_cover 2 _ (fun t _ => flushed_eq V c b hb t) cover

end Cert.KernelIdeal.Region1

end
-- ==== Proof.Region2.lean ====
/-
  Region 2: the second product, tile by tile.

  The same matrix-unit region as the first product, over the hidden features the rectifier region left and the second
  weight matrix: at point t it reads rows 5000·t … 5000·t + 4999 of the hidden features and the whole weight matrix and
  writes the tile's product into the same rows of its output array. Entry (r, q) of a tile's product is the entry
  (5000·t + r, q) of the product of the whole arrays, and the ten tiles cover every row.
-/
import proofs.«156394_j43654047596701_1_alg».proof.Proof.Gen.KernelIdeal.Frame
import proofs.«156394_j43654047596701_1_alg».proof.Proof.SpecAt
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A tile's product at (r, q): the cast to the tile's own shape and the narrowing to bf16 are the identity on the
    extended reals, and the matrix unit's product into zeros is the sum over the contracted axis. -/
theorem pay_apply (x0 : Vec Ideal S5000x128 .f32) (x1 : Vec Ideal S128x128 .f32) (r : Fin 5000) (q : Fin 128) :
    k2_pay1 x0 x1 (ix2 r q) = ∑ k : Fin 128, x0 (ix2 r k) * x1 (ix2 k q) := by
  unfold k2_pay1
  -- the cast of a tile to its own shape is the tile
  rw [shapeCast_self]
  refine (Cert.Dense.matmul_zero_plain_apply dot_S5000x128_S128x128_S5000x128_1_0_0_1_n_n rfl rfl rfl rfl rfl rfl none _ _ r q).trans ?_
  rfl

/-- The printed index maps over the grid: the row windows sit at block t, the weight window at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is tile t of the whole product. -/
theorem flushed_eq (c : Dev nD) (t : Fin cfg2.N) :
    (dat2 V c).flushed 2 t
      = ((cfg2.win 2).blk t).view.read (Elt Ideal) (Cert.Spec.mm (F := Ideal) (V c main_v47) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  have ht : (t : ℕ) < 10 := lt_of_lt_of_eq t.isLt N_2
  funext j
  obtain ⟨r, q, rfl⟩ : ∃ (r : Fin 5000) (q : Fin 128), j = ix2 r q := ⟨j 0, j 1, eq_ix2 j⟩
  show k2_pay1 (iblk2 V c 0 t) (iblk2 V c 1 t) (ix2 r q)
      = Cert.Spec.mm (F := Ideal) (V c main_v47) (V c main_arg4) (((cfg2.win 2).blk t).view.emb (ix2 r q))
  refine (pay_apply (iblk2 V c 0 t) (iblk2 V c 1 t) r q).trans ?_
  -- the tile's entry (r, q) is the array's entry (5000·t + r, q)
  have hemb : ((cfg2.win 2).blk t).view.emb (ix2 r q) = ix2 (⟨t.val * 5000 + r.val, by omega⟩ : Fin 50000) q := by
    funext a; apply Fin.ext
    match a with
    | ⟨0, _⟩ => show win2_2.index t (0 : Fin 2) * 5000 + 1 * r.val = t.val * 5000 + r.val; omega
    | ⟨1, _⟩ => show win2_2.index t (1 : Fin 2) * 128 + 1 * q.val = q.val; omega
  rw [hemb, Cert.SpecAt.mm_apply]
  refine Finset.sum_congr rfl fun k _ => ?_
  -- the feature tile's entry (r, k) is the features' entry (5000·t + r, k); the weight window is the whole matrix
  have h0 : ((cfg2.win 0).blk t).view.emb (ix2 r k) = ix2 (⟨t.val * 5000 + r.val, by omega⟩ : Fin 50000) k := by
    funext a; apply Fin.ext
    match a with
    | ⟨0, _⟩ => show win2_0.index t (0 : Fin 2) * 5000 + 1 * r.val = t.val * 5000 + r.val; omega
    | ⟨1, _⟩ => show win2_0.index t (1 : Fin 2) * 128 + 1 * k.val = k.val; omega
  have h1 : ((cfg2.win 1).blk t).view.emb (ix2 k q) = ix2 k q := by
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  refine congrArg₂ (· * ·) ?_ ?_
  · show V c main_v47 (((cfg2.win 0).blk t).view.emb (ix2 r k)) = _
    rw [h0]
  · show V c main_arg4 (((cfg2.win 1).blk t).view.emb (ix2 k q)) = _
    rw [h1]

/-- An index of the output array is in point t's tile iff each coordinate is in the tile's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Every block index 0 … 9 on the row axis is some point's. -/
theorem idx_onto : ∀ (p : Fin 10), ∃ t : Fin cfg2.N, win2_2.index t = ![p.val, 0] :=
  (by decide +kernel : ∀ (p : Fin 10), ∃ t : Fin grid2.N, win2_2.index t = ![p.val, 0])

/-- The ten tiles cover the output array: row i lies in tile i / 5000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region is the whole product of the arrays the region was entered with. -/
theorem arr (c : Dev nD) :
    (dat2 V c).arrAt 2 cfg2.N = Cert.Spec.mm (F := Ideal) (V c main_v47) (V c main_arg4) :=
  (dat2 V c).arrAt_eq_of_cover 2 _ (fun t _ => flushed_eq V c t) cover

end Cert.KernelIdeal.Region2

end
-- ==== Proof.Region3.lean ====
/-
  Region 3: the second layer's bias, tile by tile.

  The region works on ten tiles of 5000 rows: at point t it reads rows 5000·t … 5000·t + 4999 of the aggregated
  features and the bias as a [1, 128] row, adds the row to every row of the tile, and writes the tile into the same
  rows of its output array. Entry (r, q) of the tile is Y(5000·t + r, q) + b(q), which is the biased array's entry
  there; the ten tiles cover every row.
-/
import proofs.«156394_j43654047596701_1_alg».proof.Proof.Gen.KernelIdeal.Frame
import proofs.«156394_j43654047596701_1_alg».proof.Proof.SpecAt
import Idealize.ShloMosaic.Lib.Pipeline.Value
import Idealize.ShloMosaic.Lib.ValueIdx

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The tile's stored value at (r, q): the casts to the operands' own shapes are the identity and the [1, 128] row
    is repeated over the rows. -/
theorem pay_apply (x0 : Vec Ideal S5000x128 .f32) (x1 : Vec Ideal S1x128 .f32) (r : Fin 5000) (q : Fin 128) :
    k3_pay1 x0 x1 (ix2 r q) = x0 (ix2 r q) + x1 (ix2 (0 : Fin 1) q) := by
  unfold k3_pay1
  rw [addf_apply, shapeCast_self, shapeCast_self, Cert.BiasRow.stretch_row_apply]

/-- The printed index maps over the grid: the row windows sit at block t, the bias window at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is tile t of the biased array, when the bias window's array is the bias
    given a leading unit axis. -/
theorem flushed_eq (c : Dev nD) (b : FVec Ideal S128 .f32)
    (hb : V c main_v62 = shapeCast S1x128 b shapeCasts_S128_S1x128) (t : Fin cfg3.N) :
    (dat3 V c).flushed 2 t
      = ((cfg3.win 2).blk t).view.read (Elt Ideal)
          (Cert.Spec.addBias (F := Ideal) (V c main_v61) b) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  have ht : (t : ℕ) < 10 := lt_of_lt_of_eq t.isLt N_3
  funext j
  obtain ⟨r, q, rfl⟩ : ∃ (r : Fin 5000) (q : Fin 128), j = ix2 r q := ⟨j 0, j 1, eq_ix2 j⟩
  show k3_pay1 (iblk3 V c 0 t) (iblk3 V c 1 t) (ix2 r q)
      = Cert.Spec.addBias (F := Ideal) (V c main_v61) b (((cfg3.win 2).blk t).view.emb (ix2 r q))
  refine (pay_apply (iblk3 V c 0 t) (iblk3 V c 1 t) r q).trans ?_
  -- the tile's entry (r, q) is the array's entry (5000·t + r, q)
  have hemb : ((cfg3.win 2).blk t).view.emb (ix2 r q) = ix2 (⟨t.val * 5000 + r.val, by omega⟩ : Fin 50000) q := by
    funext a; apply Fin.ext
    match a with
    | ⟨0, _⟩ => show win3_2.index t (0 : Fin 2) * 5000 + 1 * r.val = t.val * 5000 + r.val; omega
    | ⟨1, _⟩ => show win3_2.index t (1 : Fin 2) * 128 + 1 * q.val = q.val; omega
  rw [hemb, Cert.SpecAt.addBias_apply]
  -- the input tile's entry (r, q) is the input's entry (5000·t + r, q); the bias window is the whole [1, 128] row
  have h0 : ((cfg3.win 0).blk t).view.emb (ix2 r q) = ix2 (⟨t.val * 5000 + r.val, by omega⟩ : Fin 50000) q := by
    funext a; apply Fin.ext
    match a with
    | ⟨0, _⟩ => show win3_0.index t (0 : Fin 2) * 5000 + 1 * r.val = t.val * 5000 + r.val; omega
    | ⟨1, _⟩ => show win3_0.index t (1 : Fin 2) * 128 + 1 * q.val = q.val; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * (0 : Fin 1).val = (0 : Fin 1).val; omega
    | ⟨1, _⟩ => show win3_1.index t (1 : Fin 2) * 128 + 1 * q.val = q.val; omega
  refine congrArg₂ (· + ·) ?_ ?_
  · show V c main_v61 (((cfg3.win 0).blk t).view.emb (ix2 r q)) = _
    rw [h0]
  · show V c main_v62 (((cfg3.win 1).blk t).view.emb (ix2 (0 : Fin 1) q)) = _
    rw [h1, hb]
    exact Cert.BiasRow.cast_row_apply shapeCasts_S128_S1x128 b q

/-- An index of the output array is in point t's tile iff each coordinate is in the tile's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Every block index 0 … 9 on the row axis is some point's. -/
theorem idx_onto : ∀ (p : Fin 10), ∃ t : Fin cfg3.N, win3_2.index t = ![p.val, 0] :=
  (by decide +kernel : ∀ (p : Fin 10), ∃ t : Fin grid3.N, win3_2.index t = ![p.val, 0])

/-- The ten tiles cover the output array: row i lies in tile i / 5000. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region is the biased input array, when the bias window's array is the bias
    given a leading unit axis. -/
theorem arr (c : Dev nD) (b : FVec Ideal S128 .f32) (hb : V c main_v62 = shapeCast S1x128 b shapeCasts_S128_S1x128) :
    (dat3 V c).arrAt 2 cfg3.N = Cert.Spec.addBias (F := Ideal) (V c main_v61) b :=
  (dat3 V c).arrAt_eq_of_cover 2 _ (fun t _ => flushed_eq V c b hb t) cover

end Cert.KernelIdeal.Region3

end
-- ==== Proof.KHost.lean ====
/-
  The host operations of the kernel's program, stretch by stretch, as functions of the buffers they read.

  Between its four regions the program computes, from the edge array, the source and destination columns and the edge
  weights (the first three stretches, before the first product), and after each product the aggregation over the
  edges and the bias laid out as a [1, 128] row (the stretch after the product). Each result is the specification's
  piece of the buffers the stretch reads; a buffer a stretch does not write keeps its contents.
-/
import proofs.«156394_j43654047596701_1_alg».proof.Proof.Gen.KernelIdeal.Launch
import proofs.«156394_j43654047596701_1_alg».proof.Proof.Spec
import Idealize.ShloMosaic.Lib.StableHlo.Run

noncomputable section

namespace Cert.KernelIdeal.HostK

open Cert.KernelIdeal Cert.KernelIdeal.Gen Idealize.ShloMosaic Idealize.ShloMosaic.TcCoe Idealize.ShloMosaic.StableHlo

variable {F : FTy → Type} [FloatOps F] (W : Valuation τ sig (Elt F))

/-- A buffer that no operation of a stretch writes keeps its contents: the stretch's operations' result buffers are
    listed and each is another reference. -/
macro "kept" : tactic =>
  `(tactic| (refine StableHlo.after_of_forall_not_mem _ _ (List.forall_iff_forall_mem.mp ?_)
             simp only [hostOps0, hostOps0_1, hostOps0_2, hostOps1, hostOps3, List.Forall, StableHlo.nullary_writes,
               StableHlo.unary_writes, StableHlo.binary_writes, StableHlo.ternary_writes, StableHlo.reshape_writes,
               Finset.mem_singleton]
             repeat' apply And.intro
             all_goals exact StableHlo.devRef_ne_of_ne (by decide)))

/-- After the first stretch the source column is row 0 of the edge array followed by the node numbers. -/
theorem ops0_v5 : after hostOps0 W (Proc.devRef .tc main_v5) = Cert.Spec.srcIdx (W (Proc.devRef .tc main_arg1)) := by
  after_results_simp <;> rfl

/-- After the first stretch the destination column is row 1 of the edge array followed by the node numbers. -/
theorem ops0_v6 : after hostOps0 W (Proc.devRef .tc main_v6) = Cert.Spec.dstIdx (W (Proc.devRef .tc main_arg1)) := by
  after_results_simp <;> rfl

/-- After the three stretches before the first product the edge weights are the specification's, of the two
    columns: the degrees by scatter-add, the node weights by the guarded inverse square root (the select of the
    outlined `where`), and the product of the two gathered node weights. -/
theorem prefix_v31 :
    after hostOps0_2 (after hostOps0_1 (after hostOps0 W)) (Proc.devRef .tc main_v31)
      = Cert.Spec.normAt (Cert.Spec.srcIdx (W (Proc.devRef .tc main_arg1))) (Cert.Spec.dstIdx (W (Proc.devRef .tc main_arg1))) := by
  after_results_simp <;> rfl

/-- The stretch after the first product: the aggregation of the product over the edges. -/
theorem ops1_v45 :
    after hostOps1 W (Proc.devRef .tc main_v45)
      = Cert.Spec.aggAt (W (Proc.devRef .tc main_v32)) (W (Proc.devRef .tc main_v5)) (W (Proc.devRef .tc main_v6))
          (W (Proc.devRef .tc main_v31)) := by
  after_results_simp <;> rfl

/-- The stretch after the first product: the first bias given a leading unit axis. -/
theorem ops1_v46 :
    after hostOps1 W (Proc.devRef .tc main_v46) = shapeCast S1x128 (W (Proc.devRef .tc main_arg3)) shapeCasts_S128_S1x128 := by
  after_results_simp <;> rfl

/-- The stretch after the second product: the aggregation of the product over the edges. -/
theorem ops3_v61 :
    after hostOps3 W (Proc.devRef .tc main_v61)
      = Cert.Spec.aggAt (W (Proc.devRef .tc main_v48)) (W (Proc.devRef .tc main_v5)) (W (Proc.devRef .tc main_v6))
          (W (Proc.devRef .tc main_v31)) := by
  after_results_simp <;> rfl

/-- The stretch after the second product: the second bias given a leading unit axis. -/
theorem ops3_v62 :
    after hostOps3 W (Proc.devRef .tc main_v62) = shapeCast S1x128 (W (Proc.devRef .tc main_arg5)) shapeCasts_S128_S1x128 := by
  after_results_simp <;> rfl

/-- Through the three stretches before the first product the source column stays what the first stretch made it. -/
theorem prefix_v5 :
    after hostOps0_2 (after hostOps0_1 (after hostOps0 W)) (Proc.devRef .tc main_v5)
      = Cert.Spec.srcIdx (W (Proc.devRef .tc main_arg1)) :=
  Eq.trans (by kept) (Eq.trans (by kept) (ops0_v5 W))

/-- The same for the destination column. -/
theorem prefix_v6 :
    after hostOps0_2 (after hostOps0_1 (after hostOps0 W)) (Proc.devRef .tc main_v6)
      = Cert.Spec.dstIdx (W (Proc.devRef .tc main_arg1)) :=
  Eq.trans (by kept) (Eq.trans (by kept) (ops0_v6 W))

/-- No stretch before the first product writes an argument. -/
theorem prefix_arg0 :
    after hostOps0_2 (after hostOps0_1 (after hostOps0 W)) (Proc.devRef .tc main_arg0) = W (Proc.devRef .tc main_arg0) :=
  Eq.trans (by kept) (Eq.trans (by kept) (by kept))
theorem prefix_arg1 :
    after hostOps0_2 (after hostOps0_1 (after hostOps0 W)) (Proc.devRef .tc main_arg1) = W (Proc.devRef .tc main_arg1) :=
  Eq.trans (by kept) (Eq.trans (by kept) (by kept))
theorem prefix_arg2 :
    after hostOps0_2 (after hostOps0_1 (after hostOps0 W)) (Proc.devRef .tc main_arg2) = W (Proc.devRef .tc main_arg2) :=
  Eq.trans (by kept) (Eq.trans (by kept) (by kept))
theorem prefix_arg3 :
    after hostOps0_2 (after hostOps0_1 (after hostOps0 W)) (Proc.devRef .tc main_arg3) = W (Proc.devRef .tc main_arg3) :=
  Eq.trans (by kept) (Eq.trans (by kept) (by kept))
theorem prefix_arg4 :
    after hostOps0_2 (after hostOps0_1 (after hostOps0 W)) (Proc.devRef .tc main_arg4) = W (Proc.devRef .tc main_arg4) :=
  Eq.trans (by kept) (Eq.trans (by kept) (by kept))
theorem prefix_arg5 :
    after hostOps0_2 (after hostOps0_1 (after hostOps0 W)) (Proc.devRef .tc main_arg5) = W (Proc.devRef .tc main_arg5) :=
  Eq.trans (by kept) (Eq.trans (by kept) (by kept))

end Cert.KernelIdeal.HostK

end
-- ==== Proof.KFold.lean ====
/-
  The kernel's result is the specification.

  The kernel's run leaves its result buffer at the contents of the last boundary of @main, a fold through the host
  stretches and the four regions from the launch memory. Read backwards: the last region adds the second bias to the
  second aggregation; the aggregation is over the second product and the edge columns and weights; the second product
  is of the rectified first layer with the second weights; the rectifier region biases and rectifies the first
  aggregation; that aggregation is over the first product; and the first product is of the node features with the
  first weights. The edge columns and weights are computed once, before the first product, and no later stretch or
  region writes them, nor any argument: they are carried unchanged to where they are read.
-/
import proofs.«156394_j43654047596701_1_alg».proof.Proof.Gen.KernelIdeal.Frame
import proofs.«156394_j43654047596701_1_alg».proof.Proof.Region0
import proofs.«156394_j43654047596701_1_alg».proof.Proof.Region1
import proofs.«156394_j43654047596701_1_alg».proof.Proof.Region2
import proofs.«156394_j43654047596701_1_alg».proof.Proof.Region3
import proofs.«156394_j43654047596701_1_alg».proof.Proof.KHost

set_option maxRecDepth 16384

noncomputable section

namespace Cert.KernelIdeal.Fold

open Cert.KernelIdeal Cert.KernelIdeal.Gen Idealize.ShloMosaic Idealize.ShloMosaic.TcCoe Idealize.ShloMosaic.StableHlo
open Cert.KernelIdeal.HostK

variable (m : (ℓ : Loc nD τ sig) → Buf (Elt Ideal) ℓ) (ρ : Dev nD → PrngReg) (c : Dev nD)

/-! ## What is carried: a buffer that neither a region's windows nor the stretch after the first product writes -/

/-- From the first product's entry to its exit. -/
theorem W4_eq_W3 (b : Ref sig .tc) (h0 : ∀ w, Pipeline.arrRef spec0 w ≠ b) :
    W4 m ρ c (Proc.devRef .tc b) = W3 m ρ c (Proc.devRef .tc b) := W4_of_ne m ρ c b h0

/-- From the first product's entry to the second product's entry. -/
theorem W6_eq_W3 (b : Ref sig .tc) (h0 : ∀ w, Pipeline.arrRef spec0 w ≠ b) (h1 : ∀ w, Pipeline.arrRef spec1 w ≠ b)
    (hk : after hostOps1 (W4 m ρ c) (Proc.devRef .tc b) = W4 m ρ c (Proc.devRef .tc b)) :
    W6 m ρ c (Proc.devRef .tc b) = W3 m ρ c (Proc.devRef .tc b) :=
  (W6_of_ne m ρ c b h1).trans (hk.trans (W4_of_ne m ρ c b h0))

/-- From the first product's entry to the second product's exit. -/
theorem W7_eq_W3 (b : Ref sig .tc) (h0 : ∀ w, Pipeline.arrRef spec0 w ≠ b) (h1 : ∀ w, Pipeline.arrRef spec1 w ≠ b)
    (h2 : ∀ w, Pipeline.arrRef spec2 w ≠ b)
    (hk : after hostOps1 (W4 m ρ c) (Proc.devRef .tc b) = W4 m ρ c (Proc.devRef .tc b)) :
    W7 m ρ c (Proc.devRef .tc b) = W3 m ρ c (Proc.devRef .tc b) :=
  (W7_of_ne m ρ c b h2).trans (W6_eq_W3 m ρ c b h0 h1 hk)

/-! ## The boundaries, in order -/

/-- The first product. -/
theorem W4_v32 : W4 m ρ c (Proc.devRef .tc main_v32) = Cert.Spec.mm (F := Ideal) (m ((c.tc : Thread nD τ).loc main_arg0)) (m ((c.tc : Thread nD τ).loc main_arg2)) := by
  refine (W4_arr m ρ c 2).trans ((Cert.KernelIdeal.Region0.arr (V3 m ρ) c).trans ?_)
  show Cert.Spec.mm (F := Ideal) (W3 m ρ c (Proc.devRef .tc main_arg0)) (W3 m ρ c (Proc.devRef .tc main_arg2)) = _
  rw [show W3 m ρ c (Proc.devRef .tc main_arg0) = _ from prefix_arg0 (W0 m ρ c),
    show W3 m ρ c (Proc.devRef .tc main_arg2) = _ from prefix_arg2 (W0 m ρ c)]

/-- The edge columns, the edge weights and the first bias at the first product's exit. -/
theorem W4_v5 : W4 m ρ c (Proc.devRef .tc main_v5) = Cert.Spec.srcIdx (m ((c.tc : Thread nD τ).loc main_arg1)) :=
  (W4_eq_W3 m ρ c main_v5 (by decide)).trans (prefix_v5 (W0 m ρ c))
theorem W4_v6 : W4 m ρ c (Proc.devRef .tc main_v6) = Cert.Spec.dstIdx (m ((c.tc : Thread nD τ).loc main_arg1)) :=
  (W4_eq_W3 m ρ c main_v6 (by decide)).trans (prefix_v6 (W0 m ρ c))
theorem W4_v31 : W4 m ρ c (Proc.devRef .tc main_v31) = Cert.Spec.normAt (Cert.Spec.srcIdx (m ((c.tc : Thread nD τ).loc main_arg1))) (Cert.Spec.dstIdx (m ((c.tc : Thread nD τ).loc main_arg1))) :=
  (W4_eq_W3 m ρ c main_v31 (by decide)).trans (prefix_v31 (W0 m ρ c))
theorem W4_arg3 : W4 m ρ c (Proc.devRef .tc main_arg3) = (m ((c.tc : Thread nD τ).loc main_arg3)) :=
  (W4_eq_W3 m ρ c main_arg3 (by decide)).trans (prefix_arg3 (W0 m ρ c))

/-- The first aggregation. -/
theorem W5_v45 : W5 m ρ c (Proc.devRef .tc main_v45) = Cert.Spec.agg (Cert.Spec.mm (F := Ideal) (m ((c.tc : Thread nD τ).loc main_arg0)) (m ((c.tc : Thread nD τ).loc main_arg2))) (m ((c.tc : Thread nD τ).loc main_arg1)) := by
  refine (ops1_v45 (W4 m ρ c)).trans ?_
  rw [W4_v32, W4_v5, W4_v6, W4_v31]
  rfl

/-- The first bias as a [1, 128] row. -/
theorem W5_v46 : W5 m ρ c (Proc.devRef .tc main_v46) = shapeCast S1x128 (m ((c.tc : Thread nD τ).loc main_arg3)) shapeCasts_S128_S1x128 := by
  refine (ops1_v46 (W4 m ρ c)).trans ?_
  rw [W4_arg3]

/-- The rectified first layer. -/
theorem W6_v47 :
    W6 m ρ c (Proc.devRef .tc main_v47) = Cert.Spec.relu (F := Ideal) (Cert.Spec.layer (F := Ideal) (m ((c.tc : Thread nD τ).loc main_arg0)) (m ((c.tc : Thread nD τ).loc main_arg2)) (m ((c.tc : Thread nD τ).loc main_arg3)) (m ((c.tc : Thread nD τ).loc main_arg1))) := by
  refine (W6_arr m ρ c 2).trans ((Cert.KernelIdeal.Region1.arr (V5 m ρ) c (m ((c.tc : Thread nD τ).loc main_arg3)) (W5_v46 m ρ c)).trans ?_)
  show Cert.Spec.relu (F := Ideal) (Cert.Spec.addBias (F := Ideal) (W5 m ρ c (Proc.devRef .tc main_v45)) (m ((c.tc : Thread nD τ).loc main_arg3))) = _
  rw [W5_v45]
  rfl

/-- The second weights at the second product's entry. -/
theorem W6_arg4 : W6 m ρ c (Proc.devRef .tc main_arg4) = (m ((c.tc : Thread nD τ).loc main_arg4)) :=
  (W6_eq_W3 m ρ c main_arg4 (by decide) (by decide) (by kept)).trans (prefix_arg4 (W0 m ρ c))

/-- The second product. -/
theorem W7_v48 :
    W7 m ρ c (Proc.devRef .tc main_v48)
      = Cert.Spec.mm (F := Ideal) (Cert.Spec.relu (F := Ideal) (Cert.Spec.layer (F := Ideal) (m ((c.tc : Thread nD τ).loc main_arg0)) (m ((c.tc : Thread nD τ).loc main_arg2)) (m ((c.tc : Thread nD τ).loc main_arg3)) (m ((c.tc : Thread nD τ).loc main_arg1)))) (m ((c.tc : Thread nD τ).loc main_arg4)) := by
  refine (W7_arr m ρ c 2).trans ((Cert.KernelIdeal.Region2.arr (V6 m ρ) c).trans ?_)
  show Cert.Spec.mm (F := Ideal) (W6 m ρ c (Proc.devRef .tc main_v47)) (W6 m ρ c (Proc.devRef .tc main_arg4)) = _
  rw [W6_v47, W6_arg4]

/-- The edge columns, the edge weights and the second bias at the second product's exit. -/
theorem W7_v5 : W7 m ρ c (Proc.devRef .tc main_v5) = Cert.Spec.srcIdx (m ((c.tc : Thread nD τ).loc main_arg1)) :=
  (W7_eq_W3 m ρ c main_v5 (by decide) (by decide) (by decide) (by kept)).trans (prefix_v5 (W0 m ρ c))
theorem W7_v6 : W7 m ρ c (Proc.devRef .tc main_v6) = Cert.Spec.dstIdx (m ((c.tc : Thread nD τ).loc main_arg1)) :=
  (W7_eq_W3 m ρ c main_v6 (by decide) (by decide) (by decide) (by kept)).trans (prefix_v6 (W0 m ρ c))
theorem W7_v31 : W7 m ρ c (Proc.devRef .tc main_v31) = Cert.Spec.normAt (Cert.Spec.srcIdx (m ((c.tc : Thread nD τ).loc main_arg1))) (Cert.Spec.dstIdx (m ((c.tc : Thread nD τ).loc main_arg1))) :=
  (W7_eq_W3 m ρ c main_v31 (by decide) (by decide) (by decide) (by kept)).trans (prefix_v31 (W0 m ρ c))
theorem W7_arg5 : W7 m ρ c (Proc.devRef .tc main_arg5) = (m ((c.tc : Thread nD τ).loc main_arg5)) :=
  (W7_eq_W3 m ρ c main_arg5 (by decide) (by decide) (by decide) (by kept)).trans (prefix_arg5 (W0 m ρ c))

/-- The second aggregation. -/
theorem W8_v61 :
    W8 m ρ c (Proc.devRef .tc main_v61)
      = Cert.Spec.agg (Cert.Spec.mm (F := Ideal) (Cert.Spec.relu (F := Ideal) (Cert.Spec.layer (F := Ideal) (m ((c.tc : Thread nD τ).loc main_arg0)) (m ((c.tc : Thread nD τ).loc main_arg2)) (m ((c.tc : Thread nD τ).loc main_arg3)) (m ((c.tc : Thread nD τ).loc main_arg1)))) (m ((c.tc : Thread nD τ).loc main_arg4))) (m ((c.tc : Thread nD τ).loc main_arg1)) := by
  refine (ops3_v61 (W7 m ρ c)).trans ?_
  rw [W7_v48, W7_v5, W7_v6, W7_v31]
  rfl

/-- The second bias as a [1, 128] row. -/
theorem W8_v62 : W8 m ρ c (Proc.devRef .tc main_v62) = shapeCast S1x128 (m ((c.tc : Thread nD τ).loc main_arg5)) shapeCasts_S128_S1x128 := by
  refine (ops3_v62 (W7 m ρ c)).trans ?_
  rw [W7_arg5]

/-- THE RESULT: the last boundary's contents at the result buffer are the network of the six arguments. -/
theorem W9_v63 : W9 m ρ c (Proc.devRef .tc main_v63) = Cert.Spec.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 2).trans ((Cert.KernelIdeal.Region3.arr (V8 m ρ) c (m ((c.tc : Thread nD τ).loc main_arg5)) (W8_v62 m ρ c)).trans ?_)
  show Cert.Spec.addBias (F := Ideal) (W8 m ρ c (Proc.devRef .tc main_v61)) (m ((c.tc : Thread nD τ).loc main_arg5)) = _
  rw [W8_v61]
  rfl

end Cert.KernelIdeal.Fold

end
-- ==== Proof.RefValue.lean ====
/-
  The reference's result is the specification.

  The reference's run ends with its result at one composed term of the argument arrays: two layers, each spelt out
  in full — the columns, the degrees, the node and edge weights, the product, the aggregation, the bias — with the
  rectifier between them. The edge arithmetic is written out once per layer there and once in the specification's
  pieces, with the same operations in the same order, so unfolding the specification's pieces gives that very term.
-/
import proofs.«156394_j43654047596701_1_alg».proof.Proof.RefRun
import proofs.«156394_j43654047596701_1_alg».proof.Proof.Spec

noncomputable section

namespace Cert.ReferenceIdeal.RefValue

open Cert.ReferenceIdeal Cert.ReferenceIdeal.Gen Idealize.ShloMosaic Idealize.ShloMosaic.TcCoe

variable {F : FTy → Type} [FloatOps F]

set_option maxRecDepth 8192 in
/-- The reference's result term is the network of the specification at the launch contents of the six arguments. -/
theorem result_eq (m : (ℓ : Loc nD τ sig) → Buf (Elt F) ℓ) (c : Dev nD) :
    Cert.ReferenceIdeal.ValueP.res_main_v98 m c
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v98 Cert.Spec.out Cert.Spec.layer Cert.Spec.addBias Cert.Spec.relu Cert.Spec.agg
    Cert.Spec.aggAt Cert.Spec.mm Cert.Spec.normAt Cert.Spec.dis Cert.Spec.deg Cert.Spec.wrap Cert.Spec.srcIdx Cert.Spec.dstIdx
  rfl

end Cert.ReferenceIdeal.RefValue

end
-- ==== Proof.lean ====
/-
  The certificate of a two-layer graph-convolution network: the kernel's program against its plain reference.

  Both programs compute, from node features x : [50000, 128], an edge array e : i32[2, 800000] and two layers'
  weights and biases, the array  layer(relu(layer(x, w1, b1, e)), w2, b2, e)  where a layer multiplies the features by
  its weights, adds each edge's scaled source row into its destination row (with a loop edge at every node and the
  symmetric degree weights), and adds the bias to every row (Proof/Spec.lean). They differ only in how the dense steps
  run: the kernel's program does each product on the matrix unit over ten tiles of 5000 rows, with both operands
  narrowed to bf16 — the identity on the extended reals — and does the bias (and the rectifier) in a tiled vector
  region, where the reference uses one general product, one broadcast add and one maximum. A tile's entries are the
  whole array's entries at the tile's rows (Proof/Region0.lean … Region3.lean), the edge arithmetic is the same host
  operations in both (Proof/KHost.lean), so the kernel's result buffer ends at the specification (Proof/KFold.lean,
  over the run re-posted with the result named, Proof/KernelRun.lean), and the reference's composed result term is the
  specification unfolded (Proof/RefValue.lean over its run, Proof/RefRun.lean). No algebraic law beyond reading a sum
  tile by tile is used, so the finiteness of the inputs is never opened.
-/
import proofs.«156394_j43654047596701_1_alg».proof.Defs
import proofs.«156394_j43654047596701_1_alg».proof.Proof.Gen.Kernel
import proofs.«156394_j43654047596701_1_alg».proof.Proof.Gen.Kernel.Skeleton
import proofs.«156394_j43654047596701_1_alg».proof.Proof.Gen.Kernel.Launch
import proofs.«156394_j43654047596701_1_alg».proof.Proof.Gen.Kernel.Points
import proofs.«156394_j43654047596701_1_alg».proof.Proof.Gen.Kernel.Frame
import proofs.«156394_j43654047596701_1_alg».proof.Proof.Gen.KernelIdeal
import proofs.«156394_j43654047596701_1_alg».proof.Proof.Gen.KernelIdeal.Skeleton
import proofs.«156394_j43654047596701_1_alg».proof.Proof.Gen.KernelIdeal.Launch
import proofs.«156394_j43654047596701_1_alg».proof.Proof.Gen.KernelIdeal.Points
import proofs.«156394_j43654047596701_1_alg».proof.Proof.Gen.KernelIdeal.Frame
import proofs.«156394_j43654047596701_1_alg».proof.Proof.Gen.ReferenceIdeal
import proofs.«156394_j43654047596701_1_alg».proof.Proof.Gen.Pre_finite_inputs
import proofs.«156394_j43654047596701_1_alg».proof.Proof.KernelRun
import proofs.«156394_j43654047596701_1_alg».proof.Proof.KFold
import proofs.«156394_j43654047596701_1_alg».proof.Proof.RefRun
import proofs.«156394_j43654047596701_1_alg».proof.Proof.RefValue
import Idealize.ShloMosaic.Adequacy
import Idealize.ShloMosaic.Init

noncomputable section

namespace Cert.Proof

open Idealize.ShloMosaic Idealize.ShloMosaic.TcCoe Idealize.SL.Sem

/-- The kernel's program runs and leaves its arguments as launched: the generated frame. -/
theorem frame_k : Cert.frame_Kernel := fun m ρ _ => Cert.Kernel.Gen.frame m ρ

/-- The same program read over the extended reals. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six arguments both programs end with the network of those arguments in their
    result buffers: the kernel's by the fold through its run, the reference's by its composed term. -/
theorem algebraic : Cert.algebraic_KernelIdeal_ReferenceIdeal := by
  intro m ρ m' ρ' _ hagree
  refine ⟨fun c => Cert.Spec.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.W9_v63 m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
